-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S20000x16 : Shape := ⟨2, ![20000, 16]⟩
abbrev S100000x40 : Shape := ⟨2, ![100000, 40]⟩
abbrev S20000x40 : Shape := ⟨2, ![20000, 40]⟩
abbrev S3300000x40 : Shape := ⟨2, ![3300000, 40]⟩
abbrev S1x40 : Shape := ⟨2, ![1, 40]⟩
abbrev S20000 : Shape := ⟨1, ![20000]⟩
abbrev S20000x1 : Shape := ⟨2, ![20000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S20000x16, .f32⟩
  | .local _ .vmem, ⟨9, _⟩ => ⟨S20000x16, .f32⟩
  | .local _ .vmem, ⟨10, _⟩ => ⟨S20000x16, .f32⟩
  | .local _ .vmem, ⟨11, _⟩ => ⟨S20000x16, .f32⟩
  | .local _ .vmem, ⟨12, _⟩ => ⟨S16x40, .f32⟩
  | .local _ .vmem, ⟨13, _⟩ => ⟨S20000x40, .f32⟩
  | .local _ .vmem, ⟨14, _⟩ => ⟨S20000x40, .f32⟩
  | .local _ .vmem, ⟨15, _⟩ => ⟨S20000x40, .f32⟩
  | .local _ .vmem, ⟨16, _⟩ => ⟨S20000x40, .f32⟩
  | .local _ .vmem, ⟨17, _⟩ => ⟨S1x40, .f32⟩
  | .local _ .vmem, ⟨18, _⟩ => ⟨S20000x40, .f32⟩
  | .local _ .vmem, ⟨19, _⟩ => ⟨S20000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x40_S16x40_0_0 : ∀ a, (![0, 0] : Fin 2 → Nat) a + S16x40.size a ≤ S16x40.size a
  h_S16x40 : 0 < S16x40.numel
  inb_S20000x40_S20000x40_0_0 : ∀ a, (![0, 0] : Fin 2 → Nat) a + S20000x40.size a ≤ S20000x40.size a
  h_S20000x40 : 0 < S20000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S20000x40_S20000x40 : S20000x40.ShapeCasts S20000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  reduces_S20000x40_S20000 : S20000x40.Reduces [1] S20000
  shapeCasts_S20000_S20000x1 : S20000.ShapeCasts S20000x1
  broadcasts_S20000x1_S20000x40 : S20000x1.Broadcasts S20000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x40_S20000x40_1_0_0_1_n_n_wf : DotDims.WF S20000x16 S16x40 S20000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S100000x16.size a
  hwx1_2 : ∀ i : grid1.Coords, EltTy.bits .f32 = 32 ∨ (Rect.block (s := S100000x16) S20000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S100000x16.size a
  hwx2_0 : ∀ i : grid2.Coords, EltTy.bits .f32 = 32 ∨ (Rect.block (s := S100000x16) S20000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x40.size a ≤ S100000x40.size a
  hwx2_2 : ∀ i : grid2.Coords, EltTy.bits .f32 = 32 ∨ (Rect.block (s := S100000x40) S20000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x40.size a ≤ S100000x40.size a
  hwx3_0 : ∀ i : grid3.Coords, EltTy.bits .f32 = 32 ∨ (Rect.block (s := S100000x40) S20000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x40.size a ≤ S100000x40.size a
  hwx3_2 : ∀ i : grid3.Coords, EltTy.bits .f32 = 32 ∨ (Rect.block (s := S100000x40) S20000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x40_S20000x40_1_0_0_1_n_n : DotDims S20000x16 S16x40 S20000x40 where
  lhsContracting := [1]
  rhsContracting := [0]
  lhsNonContracting := [0]
  rhsNonContracting := [1]
  lhsBatch := []
  rhsBatch := []
  wf := dot_S20000x16_S16x40_S20000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S20000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S20000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S20000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The graph-convolution network both programs compute, written once as whole-array functions of the six
  argument arrays: the edge list with its self loops, the symmetric degree normalisation, one layer
  (project, gather along the source index, scale, scatter-add along the target index, add the bias),
  the rectifier between the layers and the row-wise log-softmax at the end.
-/
import proofs.«141785_j24498493456719_1_alg».proof.Proof.Gen.ReferenceIdeal

noncomputable section

namespace Cert.GcnSpec

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `s` and element type `e`. -/
abbrev T (F : FTy → Type) (s : Shape) (e : EltTy) : Type := (⟨s, e⟩ : BufTy).Contents (Elt F)

/-- The source index of every message: the edge list's first row followed by one self loop per node. -/
def rowIdx (e : T F S2x3200000 .i32) : T F S3300000 .i32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target index of every message: the edge list's second row followed by one self loop per node. -/
def colIdx (e : T F S2x3200000 .i32) : T F S3300000 .i32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative index counts from the end: add the node count to it. -/
def wrapIdx (ix : T F S3300000 .i32) : T F S3300000 .i32 :=
  select (cmpi .slt ix (broadcastInDim S3300000 ![] bcast_S_S3300000 (constantI S_ 32 0#32))) (addi ix (broadcastInDim S3300000 ![] bcast_S_S3300000 (constantI S_ 32 100000#32))) ix

/-- An index vector as the one-column index matrix a gather or scatter takes. -/
def asColumn (ix : T F S3300000 .i32) : T F S3300000x1 .i32 :=
  broadcastInDim S3300000x1 ![0] bcast_S3300000_S3300000x1_0 ix

/-- The in-degree of every node, self loop included: ones scattered along the target index. -/
def degree (e : T F S2x3200000 .i32) : T F S100000 .f32 :=
  Host.scatterAdd scatter_S100000_S3300000x1_S3300000_n_0_0_1 (broadcastInDim S100000 ![] bcast_S_S100000 (constant S_ .f32 0x00000000#32)) (asColumn (colIdx e)) (broadcastInDim S3300000 ![] bcast_S_S3300000 (constant S_ .f32 0x3F800000#32))

/-- The inverse square root of the degree where it is positive, zero elsewhere. -/
def invSqrtDegree (e : T F S2x3200000 .i32) : T F S100000 .f32 :=
  select (cmpf .ogt (degree e) (broadcastInDim S100000 ![] bcast_S_S100000 (constant S_ .f32 0x00000000#32))) (Host.rsqrt (degree e)) (broadcastInDim S100000 ![] bcast_S_S100000 (id (constant S_ .f32 0x00000000#32)))

/-- The weight of every message: the inverse square roots of its two end nodes' degrees, multiplied. -/
def edgeNorm (e : T F S2x3200000 .i32) : T F S3300000 .f32 :=
  mulf (Host.gather gather_S100000_S3300000x1_S3300000_n_0_n_n_0_1_1 (invSqrtDegree e) (asColumn (wrapIdx (rowIdx e)))) (Host.gather gather_S100000_S3300000x1_S3300000_n_0_n_n_0_1_1 (invSqrtDegree e) (asColumn (wrapIdx (colIdx e))))

/-- Aggregation of 16-wide node features: gather at the source, scale by the message weight, add up at the target. -/
def aggregate16 (e : T F S2x3200000 .i32) (h : T F S100000x16 .f32) : T F S100000x16 .f32 :=
  Host.scatterAdd scatter_S100000x16_S3300000x1_S3300000x16_1_0_0_1 (broadcastInDim S100000x16 ![] bcast_S_S100000x16 (constant S_ .f32 0x00000000#32)) (asColumn (colIdx e)) (mulf (Host.gather gather_S100000x16_S3300000x1_S3300000x16_1_0_n_n_0_1_116 h (asColumn (wrapIdx (rowIdx e)))) (broadcastInDim S3300000x16 ![0, 1] bcast_S3300000x1_S3300000x16_0_1 (broadcastInDim S3300000x1 ![0] bcast_S3300000_S3300000x1_0 (edgeNorm e))))

/-- Aggregation of 40-wide node features. -/
def aggregate40 (e : T F S2x3200000 .i32) (h : T F S100000x40 .f32) : T F S100000x40 .f32 :=
  Host.scatterAdd scatter_S100000x40_S3300000x1_S3300000x40_1_0_0_1 (broadcastInDim S100000x40 ![] bcast_S_S100000x40 (constant S_ .f32 0x00000000#32)) (asColumn (colIdx e)) (mulf (Host.gather gather_S100000x40_S3300000x1_S3300000x40_1_0_n_n_0_1_140 h (asColumn (wrapIdx (rowIdx e)))) (broadcastInDim S3300000x40 ![0, 1] bcast_S3300000x1_S3300000x40_0_1 (broadcastInDim S3300000x1 ![0] bcast_S3300000_S3300000x1_0 (edgeNorm e))))

/-- The first layer's projection: node features times the 512 × 16 weight matrix. -/
def project1 (x : T F S100000x512 .f32) (w : T F S512x16 .f32) : T F S100000x16 .f32 :=
  Host.dotGeneral dot_S100000x512_S512x16_S100000x16_1_0_0_1_n_n none x w

/-- The second layer's projection: hidden features times the 16 × 40 weight matrix. -/
def project2 (x : T F S100000x16 .f32) (w : T F S16x40 .f32) : T F S100000x40 .f32 :=
  Host.dotGeneral dot_S100000x16_S16x40_S100000x40_1_0_0_1_n_n none x w

/-- A bias vector as a one-row matrix. -/
def biasRow16 (b : T F S16 .f32) : T F S1x16 .f32 := broadcastInDim S1x16 ![1] bcast_S16_S1x16_1 b
def biasRow40 (b : T F S40 .f32) : T F S1x40 .f32 := broadcastInDim S1x40 ![1] bcast_S40_S1x40_1 b

/-- Add the bias row to every row, then the rectifier. -/
def biasRelu (a : T F S100000x16 .f32) (brow : T F S1x16 .f32) : T F S100000x16 .f32 :=
  maximumf (addf a (broadcastInDim S100000x16 ![0, 1] bcast_S1x16_S100000x16_0_1 brow)) (broadcastInDim S100000x16 ![] bcast_S_S100000x16 (constant S_ .f32 0x00000000#32))

/-- Add the bias row to every row. -/
def addBias40 (a : T F S100000x40 .f32) (brow : T F S1x40 .f32) : T F S100000x40 .f32 :=
  addf a (broadcastInDim S100000x40 ![0, 1] bcast_S1x40_S100000x40_0_1 brow)

/-- Every row shifted by its own maximum. -/
def shiftByRowMax (z : T F S100000x40 .f32) : T F S100000x40 .f32 :=
  subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_))))

/-- Every row minus the logarithm of the sum of its exponentials. -/
def subLogSumExp (s : T F S100000x40 .f32) : T F S100000x40 .f32 :=
  subf s (broadcastInDim S100000x40 ![0, 1] bcast_S100000x1_S100000x40_0_1 (Host.log (broadcastInDim S100000x1 ![0] bcast_S100000_S100000x1_0 (Host.reduceAdd (Host.exp s) (constant S_ .f32 0x00000000#32) reducesTo_S100000x40_S100000_d1 h_S_))))

/-- Bias, then the row-wise log-softmax. -/
def biasLogSoftmax (a : T F S100000x40 .f32) (brow : T F S1x40 .f32) : T F S100000x40 .f32 :=
  subLogSumExp (shiftByRowMax (addBias40 a brow))

/-- The whole network. -/
def gcn (x : T F S100000x512 .f32) (e : T F S2x3200000 .i32) (w1 : T F S512x16 .f32) (b1 : T F S16 .f32)
    (w2 : T F S16x40 .f32) (b2 : T F S40 .f32) : T F S100000x40 .f32 :=
  biasLogSoftmax (aggregate40 e (project2 (biasRelu (aggregate16 e (project1 x w1)) (biasRow16 b1)) w2)) (biasRow40 b2)

end Cert.GcnSpec

end
-- ==== Proof.HostStages.lean ====
/-
  What the host operations between the kernel regions compute, as the network's whole-array functions of
  the launch contents: the message indices and weights before the first region, one aggregation after each
  projection, and the bias vectors as one-row matrices. A buffer that no later operation or region writes is
  carried forward unchanged.
-/
import proofs.«141785_j24498493456719_1_alg».proof.Proof.Gen.KernelIdeal.Frame
import proofs.«141785_j24498493456719_1_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A reference none of the listed host operations writes keeps its contents across them. -/
macro "not_written" : tactic =>
  `(tactic| (refine StableHlo.after_of_forall_not_mem _ _ (List.forall_iff_forall_mem.mp ?_)
             simp only [hostOps0, hostOps0_1, hostOps0_2, hostOps1, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## Before the first region -/

theorem W3_row (c : Dev nD) :
    W3 m ρ c (Proc.devRef .tc main_v3) = Cert.GcnSpec.rowIdx (m ((c : Thread nD τ).loc main_arg1)) := by
  show StableHlo.after hostOps0_2 (StableHlo.after hostOps0_1 (StableHlo.after hostOps0 (W0 m ρ c))) _ = _
  after_results_simp <;> rfl

theorem W3_col (c : Dev nD) :
    W3 m ρ c (Proc.devRef .tc main_v6) = Cert.GcnSpec.colIdx (m ((c : Thread nD τ).loc main_arg1)) := by
  show StableHlo.after hostOps0_2 (StableHlo.after hostOps0_1 (StableHlo.after hostOps0 (W0 m ρ c))) _ = _
  after_results_simp <;> rfl

theorem W3_norm (c : Dev nD) :
    W3 m ρ c (Proc.devRef .tc main_v29) = Cert.GcnSpec.edgeNorm (m ((c : Thread nD τ).loc main_arg1)) := by
  show StableHlo.after hostOps0_2 (StableHlo.after hostOps0_1 (StableHlo.after hostOps0 (W0 m ρ c))) _ = _
  after_results_simp <;> rfl

theorem W3_arg (c : Dev nD) (b : Ref sig .tc) (hb : b = main_arg0 ∨ b = main_arg2 ∨ b = main_arg3 ∨ b = main_arg4 ∨ b = main_arg5) :
    W3 m ρ c (Proc.devRef .tc b) = m ((c : Thread nD τ).loc b) := by
  show StableHlo.after hostOps0_2 (StableHlo.after hostOps0_1 (StableHlo.after hostOps0 (W0 m ρ c))) _ = _
  rcases hb with rfl | rfl | rfl | rfl | rfl <;>
  · refine Eq.trans (by not_written) (Eq.trans (by not_written) (Eq.trans (by not_written) rfl))

/-! ## Carried across the regions and the stretches between them -/

/-- The message indices, the message weights and the later arguments are as before the first region when the
    second stretch of host operations has run. -/
theorem W5_keep (c : Dev nD) (b : Ref sig .tc)
    (hb : b = main_v3 ∨ b = main_v6 ∨ b = main_v29 ∨ b = main_arg4 ∨ b = main_arg5) :
    W5 m ρ c (Proc.devRef .tc b) = W3 m ρ c (Proc.devRef .tc b) := by
  rcases hb with rfl | rfl | rfl | rfl | rfl <;>
  · refine Eq.trans ?_ (W4_of_ne m ρ c _ (by decide))
    show StableHlo.after hostOps1 (W4 m ρ c) _ = _
    not_written

/-- … and still when the third region has run. -/
theorem W7_keep (c : Dev nD) (b : Ref sig .tc)
    (hb : b = main_v3 ∨ b = main_v6 ∨ b = main_v29 ∨ b = main_arg5) :
    W7 m ρ c (Proc.devRef .tc b) = W3 m ρ c (Proc.devRef .tc b) := by
  rcases hb with rfl | rfl | rfl | rfl <;>
  · exact (W7_of_ne m ρ c _ (by decide)).trans ((W6_of_ne m ρ c _ (by decide)).trans (W5_keep m ρ c _ (by simp)))

/-! ## After the first region: the first aggregation and the first bias row -/

theorem W5_aggregate (c : Dev nD) :
    W5 m ρ c (Proc.devRef .tc main_v43)
      = Cert.GcnSpec.aggregate16 (m ((c : Thread nD τ).loc main_arg1)) (W4 m ρ c (Proc.devRef .tc main_v30)) := by
  show StableHlo.after hostOps1 (W4 m ρ c) _ = _
  after_results_simp
  rw [W4_of_ne m ρ c main_v3 (by decide), W4_of_ne m ρ c main_v6 (by decide), W4_of_ne m ρ c main_v29 (by decide),
    W3_row, W3_col, W3_norm]
  rfl

theorem W5_bias (c : Dev nD) :
    W5 m ρ c (Proc.devRef .tc main_v44)
      = shapeCast S1x16 (m ((c : Thread nD τ).loc main_arg3)) shapeCasts_S16_S1x16 := by
  show StableHlo.after hostOps1 (W4 m ρ c) _ = _
  after_results_simp
  rw [W4_of_ne m ρ c main_arg3 (by decide), W3_arg m ρ c main_arg3 (by simp)]
  rfl

/-! ## After the third region: the second aggregation and the second bias row -/

theorem W8_aggregate (c : Dev nD) :
    W8 m ρ c (Proc.devRef .tc main_v59)
      = Cert.GcnSpec.aggregate40 (m ((c : Thread nD τ).loc main_arg1)) (W7 m ρ c (Proc.devRef .tc main_v46)) := by
  show StableHlo.after hostOps3 (W7 m ρ c) _ = _
  after_results_simp
  rw [W7_keep m ρ c main_v3 (by simp), W7_keep m ρ c main_v6 (by simp), W7_keep m ρ c main_v29 (by simp),
    W3_row, W3_col, W3_norm]
  rfl

theorem W8_bias (c : Dev nD) :
    W8 m ρ c (Proc.devRef .tc main_v60)
      = shapeCast S1x40 (m ((c : Thread nD τ).loc main_arg5)) shapeCasts_S40_S1x40 := by
  show StableHlo.after hostOps3 (W7 m ρ c) _ = _
  after_results_simp
  rw [W7_keep m ρ c main_arg5 (by simp), W3_arg m ρ c main_arg5 (by simp)]
  rfl

/-! ## What each region reads and leaves -/

theorem W6_arg4 (c : Dev nD) : W6 m ρ c (Proc.devRef .tc main_arg4) = m ((c : Thread nD τ).loc main_arg4) :=
  (W6_of_ne m ρ c _ (by decide)).trans ((W5_keep m ρ c _ (by simp)).trans (W3_arg m ρ c _ (by simp)))

theorem W4_out (c : Dev nD) : W4 m ρ c (Proc.devRef .tc main_v30) = (dat0 (V3 m ρ) c).arrAt 2 cfg0.N := W4_arr m ρ c 2
theorem W6_out (c : Dev nD) : W6 m ρ c (Proc.devRef .tc main_v45) = (dat1 (V5 m ρ) c).arrAt 2 cfg1.N := W6_arr m ρ c 2
theorem W7_out (c : Dev nD) : W7 m ρ c (Proc.devRef .tc main_v46) = (dat2 (V6 m ρ) c).arrAt 2 cfg2.N := W7_arr m ρ c 2
theorem W9_out (c : Dev nD) : W9 m ρ c (Proc.devRef .tc main_v61) = (dat3 (V8 m ρ) c).arrAt 2 cfg3.N := W9_arr m ρ c 2

end Cert.KernelIdeal.Host

end
-- ==== Proof.BiasRow.lean ====
/-
  A bias vector laid out as a one-row matrix: reshaping [n] to [1, n] and broadcasting [n] along axis 1 of
  [1, n] give the same matrix, the entry at (0, j) being the vector's j-th.
-/
import proofs.«141785_j24498493456719_1_alg».proof.Proof.Spec
import Idealize.ShloMosaic.Lib.Pipeline.Value

noncomputable section

namespace Cert.GcnSpec

open Cert.ReferenceIdeal Cert.ReferenceIdeal.Gen Idealize.ShloMosaic Idealize.ShloMosaic.TcCoe Idealize.SL.Sem

variable {F : FTy → Type} [FloatOps F]

theorem reshape_eq_biasRow16 (b : T F S16 .f32) (h : S16.ShapeCasts S1x16) : shapeCast S1x16 b h = biasRow16 b := by
  funext j
  unfold biasRow16
  rw [shapeCast_addUnit_apply ![16] b h j]
  exact (broadcastInDim_apply (s := S16) (t := S1x16) ![1] bcast_S16_S1x16_1 b j (fun a => j a.succ)
    (fun a => by match a with | ⟨0, _⟩ => rfl)).symm

theorem reshape_eq_biasRow40 (b : T F S40 .f32) (h : S40.ShapeCasts S1x40) : shapeCast S1x40 b h = biasRow40 b := by
  funext j
  unfold biasRow40
  rw [shapeCast_addUnit_apply ![40] b h j]
  exact (broadcastInDim_apply (s := S40) (t := S1x40) ![1] bcast_S40_S1x40_1 b j (fun a => j a.succ)
    (fun a => by match a with | ⟨0, _⟩ => rfl)).symm

end Cert.GcnSpec

end
-- ==== Proof.Region0.lean ====
import proofs.«141785_j24498493456719_1_alg».proof.Proof.Gen.KernelIdeal.Frame
import proofs.«141785_j24498493456719_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2 contrEquiv1 contrEquiv1_symm_val)

/-! ## The product at an index -/

/-! ### The block product's operand indices, axis by axis -/

theorem lhs_blockDot_0 (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem lhs_blockDot_1 (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
theorem rhs_blockDot_0 (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
theorem rhs_blockDot_1 (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- The body's product of a 2000 × 512 block with the 512 × 16 weights, at row `p` and column `q` of the block. -/
theorem blockProduct_apply (v0 : Vec Ideal S2000x512 .f32) (v2 : Vec Ideal S512x16 .f32) (p : Fin 2000) (q : Fin 16) :
    k0_pay1 (F := Ideal) v0 v2 (ix2 p q) = ∑ k : Fin 512, v0 (ix2 p k) * v2 (ix2 k q) := by
  unfold k0_pay1
  refine (Ideal.matmul_constant_zero_apply dot_S2000x512_S512x16_S2000x16_1_0_0_1_n_n none _ _ (ix2 p q)).trans ?_
  rw [← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 p q) ((contrEquiv1 dot_S2000x512_S512x16_S2000x16_1_0_0_1_n_n 512 rfl rfl).symm k) = ix2 p k := funext fun a => Fin.ext (by
    match a with
    | ⟨0, _⟩ => exact lhs_blockDot_0 _ _
    | ⟨1, _⟩ => exact (lhs_blockDot_1 _ _).trans hk)
  have er : dot_S2000x512_S512x16_S2000x16_1_0_0_1_n_n.rhsIdx (ix2 p q) ((contrEquiv1 dot_S2000x512_S512x16_S2000x16_1_0_0_1_n_n 512 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-! ### The whole product's operand indices, axis by axis -/

theorem lhs_wholeDot_0 (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x16_S100000x16_1_0_0_1_n_n.lhsBatch by decide), dif_pos (show (0 : Fin Cert.ReferenceIdeal.S100000x512.rank) ∈ Cert.ReferenceIdeal.dot_S100000x512_S512x16_S100000x16_1_0_0_1_n_n.lhsNonContracting by decide)]
  rfl
theorem lhs_wholeDot_1 (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 1).val = (q ⟨0, by decide⟩).val :=
  Cert.ReferenceIdeal.dot_S100000x512_S512x16_S100000x16_1_0_0_1_n_n.lhsIdx_val_of_single rfl i q
theorem rhs_wholeDot_0 (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 0).val = (q ⟨0, by decide⟩).val :=
  Cert.ReferenceIdeal.dot_S100000x512_S512x16_S100000x16_1_0_0_1_n_n.rhsIdx_val_of_single rfl i q
theorem rhs_wholeDot_1 (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 1).val = (i 1).val := by
  unfold DotDims.rhsIdx
  rw [dif_neg (show ¬(1 : Fin Cert.ReferenceIdeal.S512x16.rank) ∈ Cert.ReferenceIdeal.dot_S100000x512_S512x16_S100000x16_1_0_0_1_n_n.rhsBatch by decide), dif_pos (show (1 : Fin Cert.ReferenceIdeal.S512x16.rank) ∈ Cert.ReferenceIdeal.dot_S100000x512_S512x16_S100000x16_1_0_0_1_n_n.rhsNonContracting by decide)]
  rfl

/-- The first layer's projection at row `P` and column `q`: the same sum over the 512 shared coordinates. -/
theorem project1_apply (X : Cert.GcnSpec.T Ideal Cert.ReferenceIdeal.S100000x512 .f32) (W : Cert.GcnSpec.T Ideal Cert.ReferenceIdeal.S512x16 .f32)
    (P : Fin 100000) (q : Fin 16) :
    Cert.GcnSpec.project1 (F := Ideal) X W (ix2 P q) = ∑ k : Fin 512, X (ix2 P k) * W (ix2 k q) := by
  unfold Cert.GcnSpec.project1
  simp only [Host.dotGeneral]
  rw [Ideal.dotGeneral_apply, ← Equiv.sum_comp (contrEquiv1 Cert.ReferenceIdeal.dot_S100000x512_S512x16_S100000x16_1_0_0_1_n_n 512 rfl rfl).symm]
  refine Finset.sum_congr rfl fun k _ => ?_
  have hk := contrEquiv1_symm_val Cert.ReferenceIdeal.dot_S100000x512_S512x16_S100000x16_1_0_0_1_n_n 512 rfl rfl k
  have el : Cert.ReferenceIdeal.dot_S100000x512_S512x16_S100000x16_1_0_0_1_n_n.lhsIdx (ix2 P q) ((contrEquiv1 Cert.ReferenceIdeal.dot_S100000x512_S512x16_S100000x16_1_0_0_1_n_n 512 rfl rfl).symm k) = ix2 P k := funext fun a => Fin.ext (by
    match a with
    | ⟨0, _⟩ => exact lhs_wholeDot_0 _ _
    | ⟨1, _⟩ => exact (lhs_wholeDot_1 _ _).trans hk)
  have er : Cert.ReferenceIdeal.dot_S100000x512_S512x16_S100000x16_1_0_0_1_n_n.rhsIdx (ix2 P q) ((contrEquiv1 Cert.ReferenceIdeal.dot_S100000x512_S512x16_S100000x16_1_0_0_1_n_n 512 rfl rfl).symm k) = ix2 k q := funext fun a => Fin.ext (by
    match a with
    | ⟨0, _⟩ => exact (rhs_wholeDot_0 _ _).trans hk
    | ⟨1, _⟩ => exact rhs_wholeDot_1 _ _)
  rw [el, er]

/-- A block's product is the projection at the block's rows: row `p` of the block is row `P` of the features,
    and the weights are the weights. -/
theorem blockProduct_eq_project1 (x0 : Vec Ideal S2000x512 .f32) (x1 : Vec Ideal S512x16 .f32)
    (X : Cert.GcnSpec.T Ideal Cert.ReferenceIdeal.S100000x512 .f32) (W : Cert.GcnSpec.T Ideal Cert.ReferenceIdeal.S512x16 .f32)
    (p : Fin 2000) (q : Fin 16) (P : Fin 100000)
    (h0 : ∀ k : Fin 512, x0 (ix2 p k) = X (ix2 P k)) (h1 : ∀ k : Fin 512, x1 (ix2 k q) = W (ix2 k q)) :
    k0_pay1 (F := Ideal) x0 x1 (ix2 p q) = Cert.GcnSpec.project1 (F := Ideal) X W (ix2 P q) := by
  rw [blockProduct_apply, project1_apply]
  exact Finset.sum_congr rfl fun k _ => by rw [h0 k, h1 k]

variable (V : (c : Dev nD) → (b : Ref sig .tc) → Buf (Elt Ideal) ((c : Thread nD τ).loc b))

/-! ## From the blocks to the array -/

theorem zeroOffsets : (![0, 0] : Fin 2 → Nat) = fun _ => 0 := funext fun a => by fin_cases a <;> rfl

/-- The printed index maps, decided over the grid: point `t` reads the feature rows' block `t` and the whole weights,
    and writes the result rows' block `t`. -/
theorem blockIndices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the projection of the two arrays as the region finds them. -/
theorem flushed_eq_project1 (c : Dev nD) (t : Fin cfg0.N) :
    (dat0 (F := Ideal) V c).flushed 2 t
      = ((cfg0.win 2).blk t).view.read (Elt Ideal) (Cert.GcnSpec.project1 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S2000x512) zeroOffsets, View.ld_unit_zero (S := S512x16) zeroOffsets]
  obtain ⟨e00, e01, e10, e11, e20, e21⟩ := blockIndices t
  have ht : t.val < 50 := lt_of_lt_of_eq t.isLt N_0
  refine funext fun (j : S2000x16.Idx) => ?_
  obtain ⟨p, q, rfl⟩ : ∃ (p : Fin 2000) (q : Fin 16), j = ix2 p q := ⟨j 0, j 1, eq_ix2 j⟩
  have hp : p.val < 2000 := p.isLt
  have hq : q.val < 16 := q.isLt
  refine (blockProduct_eq_project1 (iblk0 V c 0 t) (iblk0 V c 1 t) (V c main_arg0) (V c main_arg2) p q
    ⟨2000 * t.val + p.val, by omega⟩ (fun k => ?_) (fun k => ?_)).trans (congrArg _ ?_)
  · have hk : k.val < 512 := k.isLt
    unfold iblk0
    rw [View.read_apply]
    show V c main_arg0 _ = V c main_arg0 _
    congr 1
    funext a
    apply Fin.ext
    match a with
    | ⟨0, _⟩ => show win0_0.index t (0 : Fin 2) * 2000 + 1 * p.val = 2000 * t.val + p.val; omega
    | ⟨1, _⟩ => show win0_0.index t (1 : Fin 2) * 512 + 1 * k.val = k.val; omega
  · have hk : k.val < 512 := k.isLt
    unfold iblk0
    rw [View.read_apply]
    show V c main_arg2 _ = V c main_arg2 _
    congr 1
    funext a
    apply Fin.ext
    match a with
    | ⟨0, _⟩ => show win0_1.index t (0 : Fin 2) * 512 + 1 * k.val = k.val; omega
    | ⟨1, _⟩ => show win0_1.index t (1 : Fin 2) * 16 + 1 * q.val = q.val; omega
  · funext a
    apply Fin.ext
    match a with
    | ⟨0, _⟩ => show 2000 * t.val + p.val = win0_2.index t (0 : Fin 2) * 2000 + 1 * p.val; omega
    | ⟨1, _⟩ => show q.val = win0_2.index t (1 : Fin 2) * 16 + 1 * q.val; omega

/-- An index of the result array is in point `t`'s block iff each coordinate is in the block's range on its axis. -/
theorem mem_resultBlock (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row `r` of the result is in the block of point `r / 2000`: the fifty blocks cover the array. -/
theorem resultBlocks_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_2 _, ?_⟩
  obtain ⟨-, -, -, -, e20, e21⟩ := blockIndices ⟨(i 0).val / 2000, by rw [hN]; omega⟩
  rw [mem_resultBlock]
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 16 ≤ (i 1).val ∧ (i 1).val < win0_2.index _ (1 : Fin 2) * 16 + 16
    rw [e21]; omega

/-- The result array after the region is the first layer's projection of the two arrays the region reads. -/
theorem final (c : Dev nD) :
    (dat0 (F := Ideal) V c).arrAt 2 cfg0.N = Cert.GcnSpec.project1 (F := Ideal) (V c main_arg0) (V c main_arg2) :=
  (dat0 (F := Ideal) V c).arrAt_eq_of_cover 2 _ (fun t _ => flushed_eq_project1 V c t) resultBlocks_cover

end Cert.KernelIdeal.Region0

end
-- ==== Proof.Region1.lean ====
/-
  Region 1: the bias row added to every row of the 100000 × 16 activations and the result cut off below at
  zero, computed in five bands of 20000 rows. Each band's block is the band of one whole-array function of
  the two input arrays, and the five bands cover the array, so the output array is that function.
-/
import proofs.«141785_j24498493456719_1_alg».proof.Proof.Gen.KernelIdeal.Frame
import proofs.«141785_j24498493456719_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The body's arithmetic at row p, column q of a block: the block's entry plus the bias row's entry in
    that column, cut off below at zero. -/
theorem payload_apply (x0 : Vec Ideal S20000x16 .f32) (x1 : Vec Ideal S1x16 .f32) (p : Fin 20000) (q : Fin 16) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self, maximumf_apply, addf_apply, broadcast_apply,
    broadcastTo_apply x1 _ (ix2 p q) (ix2 (0 : Fin 1) q) (fun a => by
      match a with
      | ⟨0, _⟩ => rfl
      | ⟨1, _⟩ => rfl)]
  rfl

/-- The whole-array function at row i, column q: the same formula. -/
theorem biasRelu_apply (a : S100000x16.Idx → Elt Ideal .f32) (b : S1x16.Idx → Elt Ideal .f32) (i : Fin 100000) (q : Fin 16) :
    Cert.GcnSpec.biasRelu (F := Ideal) a b (ix2 i q)
      = max (a (ix2 i q) + b (ix2 (0 : Fin 1) q)) (Ideal.ofBits .f32 0x00000000#32) := by
  unfold Cert.GcnSpec.biasRelu
  rw [maximumf_apply, addf_apply,
    broadcastInDim_apply _ _ b (ix2 i q) (ix2 (0 : Fin 1) q) (fun a => by
      match a with
      | ⟨0, _⟩ => rfl
      | ⟨1, _⟩ => rfl),
    broadcastInDim_apply _ _ _ (ix2 i q) ix0 (fun a => a.elim0), constant_apply]

variable (V : (c : Dev nD) → (b : Ref sig .tc) → Buf (Elt Ideal) ((c : Thread nD τ).loc b))

/-- The stores and loads of the body all start at the origin of their buffers. -/
theorem origin : (![0, 0] : Fin 2 → Nat) = fun _ => 0 := funext fun a => by fin_cases a <;> rfl

/-- The index maps over the five grid points: the activation block and the output block are the
    same band of rows, the bias row is always the whole row, and the band's number stays below five. -/
theorem band_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

/-- Every band of 20000 rows is some grid point's output block. -/
theorem band_onto : ∀ (b : Fin 5), ∃ t : Fin cfg1.N, win1_2.index t = ![b.val, 0] :=
  (by decide +kernel : ∀ (b : Fin 5), ∃ t : Fin grid1.N, win1_2.index t = ![b.val, 0])

/-- What grid point t writes back is band t of the whole-array function of the two input arrays. -/
theorem flushed_eq (c : Dev nD) (t : Fin cfg1.N) :
    (dat1 (F := Ideal) V c).flushed 2 t
      = ((cfg1.win 2).blk t).view.read (Elt Ideal) (Cert.GcnSpec.biasRelu (F := Ideal) (V c main_v43) (V c main_v44)) := by
  show (cfg1.win 2).cut (grid1.coords t) ((dat1 V c).after 2 t) = _
  rw [after1_2]
  unfold out1_2
  rw [View.canon_unit_zero origin]
  simp only [View.ld_unit_zero (S := S20000x16) origin, View.ld_unit_zero (S := S1x16) origin]
  obtain ⟨e0, e1, e2, e3, e4, e5⟩ := band_facts t
  funext j
  obtain ⟨p, q, rfl⟩ : ∃ (p : Fin 20000) (q : Fin 16), j = ix2 p q := ⟨j 0, j 1, eq_ix2 j⟩
  have hp : p.val < 20000 := p.isLt
  have hr : win1_2.index t (0 : Fin 2) * 20000 + p.val < 100000 := by omega
  have hout : ((cfg1.win 2).blk t).view.emb (ix2 p q)
      = ix2 (⟨win1_2.index t (0 : Fin 2) * 20000 + p.val, hr⟩ : Fin 100000) q := by
    funext a; apply Fin.ext
    match a with
    | ⟨0, _⟩ => show win1_2.index t (0 : Fin 2) * 20000 + 1 * p.val = win1_2.index t (0 : Fin 2) * 20000 + p.val; omega
    | ⟨1, _⟩ => show win1_2.index t (1 : Fin 2) * 16 + 1 * q.val = q.val; omega
  have hact : iblk1 V c 0 t (ix2 p q)
      = V c main_v43 (ix2 (⟨win1_2.index t (0 : Fin 2) * 20000 + p.val, hr⟩ : Fin 100000) q) := by
    show V c main_v43 (((cfg1.win 0).blk t).view.emb (ix2 p q)) = _
    refine congrArg _ ?_
    funext a; apply Fin.ext
    match a with
    | ⟨0, _⟩ => show win1_0.index t (0 : Fin 2) * 20000 + 1 * p.val = win1_2.index t (0 : Fin 2) * 20000 + p.val; omega
    | ⟨1, _⟩ => show win1_0.index t (1 : Fin 2) * 16 + 1 * q.val = q.val; omega
  have hbias : iblk1 V c 1 t (ix2 (0 : Fin 1) q) = V c main_v44 (ix2 (0 : Fin 1) q) := by
    show V c main_v44 (((cfg1.win 1).blk t).view.emb (ix2 (0 : Fin 1) q)) = _
    refine congrArg _ ?_
    funext a; apply Fin.ext
    match a with
    | ⟨0, _⟩ => show win1_1.index t (0 : Fin 2) * 1 + 1 * 0 = 0; omega
    | ⟨1, _⟩ => show win1_1.index t (1 : Fin 2) * 16 + 1 * q.val = q.val; omega
  refine (payload_apply _ _ p q).trans ?_
  show _ = Cert.GcnSpec.biasRelu (F := Ideal) (V c main_v43) (V c main_v44) (((cfg1.win 2).blk t).view.emb (ix2 p q))
  rw [hout, hact, hbias]
  exact (biasRelu_apply _ _ _ q).symm

/-- A row and column lie in grid point t's output block iff each lies in the block's range on its axis. -/
theorem mem_blk (t : Fin cfg1.N) (i : S100000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v45).slice (win1_2.rect t)).set ↔ _
  rw [View.set_slice_whole, Rect.mem_set_unit]
  exact Iff.rfl

/-- Row r is written by the grid point of band r / 20000: the five bands cover the array. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := band_onto ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 16 ≤ (i 1).val ∧ (i 1).val < win1_2.index t (1 : Fin 2) * 16 + 16; omega

/-- The output array after the region: the bias row added to every row of the activations, cut off below at zero. -/
theorem final (c : Dev nD) :
    (dat1 (F := Ideal) V c).arrAt 2 cfg1.N = Cert.GcnSpec.biasRelu (F := Ideal) (V c main_v43) (V c main_v44) :=
  (dat1 (F := Ideal) V c).arrAt_eq_of_cover 2 _ (fun t _ => flushed_eq V c t) covered

end Cert.KernelIdeal.Region1

end
-- ==== Proof.Region2.lean ====
import proofs.«141785_j24498493456719_1_alg».proof.Proof.Gen.KernelIdeal.Frame
import proofs.«141785_j24498493456719_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block's matrix product at an index -/

/-- The left operand's row is the result's row. -/
theorem blockLhs_row (j : S20000x40.Idx) (k : dot_S20000x16_S16x40_S20000x40_1_0_0_1_n_n.contr.Idx) :
    (dot_S20000x16_S16x40_S20000x40_1_0_0_1_n_n.lhsIdx j k 0).val = (j 0).val := rfl
/-- The left operand's column is the contraction position. -/
theorem blockLhs_col (j : S20000x40.Idx) (k : dot_S20000x16_S16x40_S20000x40_1_0_0_1_n_n.contr.Idx) :
    (dot_S20000x16_S16x40_S20000x40_1_0_0_1_n_n.lhsIdx j k 1).val = (k ⟨0, by decide⟩).val := rfl
/-- The right operand's row is the contraction position. -/
theorem blockRhs_row (j : S20000x40.Idx) (k : dot_S20000x16_S16x40_S20000x40_1_0_0_1_n_n.contr.Idx) :
    (dot_S20000x16_S16x40_S20000x40_1_0_0_1_n_n.rhsIdx j k 0).val = (k ⟨0, by decide⟩).val := rfl
/-- The right operand's column is the result's column. -/
theorem blockRhs_col (j : S20000x40.Idx) (k : dot_S20000x16_S16x40_S20000x40_1_0_0_1_n_n.contr.Idx) :
    (dot_S20000x16_S16x40_S20000x40_1_0_0_1_n_n.rhsIdx j k 1).val = (j 1).val := rfl

/-- The body's arithmetic at row p, column q of the block: the sum over the sixteen hidden features. -/
theorem blockProduct_apply (x0 : Vec Ideal S20000x16 .f32) (x1 : Vec Ideal S16x40 .f32) (p : Fin 20000) (q : Fin 40) :
    k2_pay1 (F := Ideal) x0 x1 (ix2 p q) = ∑ k : Fin 16, x0 (ix2 p k) * x1 (ix2 k q) := by
  unfold k2_pay1
  rw [shapeCast_self]
  refine (Ideal.matmul_constant_zero_apply dot_S20000x16_S16x40_S20000x40_1_0_0_1_n_n none _ _ (ix2 p q)).trans ?_
  rw [← Equiv.sum_comp (contrEquiv1 dot_S20000x16_S16x40_S20000x40_1_0_0_1_n_n 16 rfl rfl).symm]
  refine Finset.sum_congr rfl fun k _ => ?_
  have hk := contrEquiv1_symm_val dot_S20000x16_S16x40_S20000x40_1_0_0_1_n_n 16 rfl rfl k
  simp only [truncf_apply]
  congr 2
  · funext a; apply Fin.ext
    match a with
    | ⟨0, _⟩ => exact blockLhs_row _ _
    | ⟨1, _⟩ => exact (blockLhs_col _ _).trans hk
  · funext a; apply Fin.ext
    match a with
    | ⟨0, _⟩ => exact (blockRhs_row _ _).trans hk
    | ⟨1, _⟩ => exact blockRhs_col _ _

/-! ## The whole projection at an index -/

theorem wholeLhs_row (j : Cert.ReferenceIdeal.S100000x40.Idx) (k : Cert.ReferenceIdeal.dot_S100000x16_S16x40_S100000x40_1_0_0_1_n_n.contr.Idx) :
    (Cert.ReferenceIdeal.dot_S100000x16_S16x40_S100000x40_1_0_0_1_n_n.lhsIdx j k 0).val = (j 0).val := rfl
theorem wholeLhs_col (j : Cert.ReferenceIdeal.S100000x40.Idx) (k : Cert.ReferenceIdeal.dot_S100000x16_S16x40_S100000x40_1_0_0_1_n_n.contr.Idx) :
    (Cert.ReferenceIdeal.dot_S100000x16_S16x40_S100000x40_1_0_0_1_n_n.lhsIdx j k 1).val = (k ⟨0, by decide⟩).val := rfl
theorem wholeRhs_row (j : Cert.ReferenceIdeal.S100000x40.Idx) (k : Cert.ReferenceIdeal.dot_S100000x16_S16x40_S100000x40_1_0_0_1_n_n.contr.Idx) :
    (Cert.ReferenceIdeal.dot_S100000x16_S16x40_S100000x40_1_0_0_1_n_n.rhsIdx j k 0).val = (k ⟨0, by decide⟩).val := rfl
theorem wholeRhs_col (j : Cert.ReferenceIdeal.S100000x40.Idx) (k : Cert.ReferenceIdeal.dot_S100000x16_S16x40_S100000x40_1_0_0_1_n_n.contr.Idx) :
    (Cert.ReferenceIdeal.dot_S100000x16_S16x40_S100000x40_1_0_0_1_n_n.rhsIdx j k 1).val = (j 1).val := rfl

/-- The second layer's projection at node r, class q: the sum over the sixteen hidden features. -/
theorem project2_apply (x : Cert.GcnSpec.T Ideal Cert.ReferenceIdeal.S100000x16 .f32) (w : Cert.GcnSpec.T Ideal Cert.ReferenceIdeal.S16x40 .f32) (r : Fin 100000) (q : Fin 40) :
    Cert.GcnSpec.project2 (F := Ideal) x w (ix2 r q) = ∑ k : Fin 16, x (ix2 r k) * w (ix2 k q) := by
  unfold Cert.GcnSpec.project2
  simp only [Host.dotGeneral]
  refine (Ideal.dotGeneral_apply Cert.ReferenceIdeal.dot_S100000x16_S16x40_S100000x40_1_0_0_1_n_n none _ _ _ (ix2 r q)).trans ?_
  rw [← Equiv.sum_comp (contrEquiv1 Cert.ReferenceIdeal.dot_S100000x16_S16x40_S100000x40_1_0_0_1_n_n 16 rfl rfl).symm]
  refine Finset.sum_congr rfl fun k _ => ?_
  have hk := contrEquiv1_symm_val Cert.ReferenceIdeal.dot_S100000x16_S16x40_S100000x40_1_0_0_1_n_n 16 rfl rfl k
  congr 2
  · funext a; apply Fin.ext
    match a with
    | ⟨0, _⟩ => exact wholeLhs_row _ _
    | ⟨1, _⟩ => exact (wholeLhs_col _ _).trans hk
  · funext a; apply Fin.ext
    match a with
    | ⟨0, _⟩ => exact (wholeRhs_row _ _).trans hk
    | ⟨1, _⟩ => exact wholeRhs_col _ _

/-- A block of twenty thousand rows of the projection is the block's own product, when the block's left operand
    is those rows of the features and its right operand is the weight matrix. -/
theorem blockProduct_eq_project2 (x0 : Vec Ideal S20000x16 .f32) (x1 : Vec Ideal S16x40 .f32)
    (X : Cert.GcnSpec.T Ideal Cert.ReferenceIdeal.S100000x16 .f32) (W : Cert.GcnSpec.T Ideal Cert.ReferenceIdeal.S16x40 .f32)
    (n : Nat) (j : S20000x40.Idx) (i : Cert.ReferenceIdeal.S100000x40.Idx)
    (hi0 : (i 0).val = n * 20000 + (j 0).val) (hi1 : (i 1).val = (j 1).val)
    (hx0 : ∀ (y : S20000x16.Idx) (z : Cert.ReferenceIdeal.S100000x16.Idx), (z 0).val = n * 20000 + (y 0).val → (z 1).val = (y 1).val → x0 y = X z)
    (hx1 : ∀ y : S16x40.Idx, x1 y = W y) :
    k2_pay1 (F := Ideal) x0 x1 j = Cert.GcnSpec.project2 (F := Ideal) X W i := by
  obtain ⟨p, q, rfl⟩ : ∃ (p : Fin 20000) (q : Fin 40), j = ix2 p q := ⟨j 0, j 1, eq_ix2 j⟩
  obtain ⟨r, q', rfl⟩ : ∃ (r : Fin 100000) (q' : Fin 40), i = ix2 r q' := ⟨i 0, i 1, eq_ix2 i⟩
  obtain rfl : q' = q := Fin.ext hi1
  rw [blockProduct_apply, project2_apply]
  refine Finset.sum_congr rfl fun k _ => ?_
  rw [hx0 (ix2 p k) (ix2 r k) hi0 rfl, hx1]

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices over the grid: the feature rows and the result rows move with the point, the weight matrix stays. -/
theorem blockIndex_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point t is rows 20000 t … of the feature array. -/
theorem featureBlock_apply (c : Dev nD) (t : Fin cfg2.N) (y : S20000x16.Idx) (z : S100000x16.Idx)
    (h0 : (z 0).val = t.val * 20000 + (y 0).val) (h1 : (z 1).val = (y 1).val) :
    (iblk2 V c 0 t : Vec Ideal S20000x16 .f32) y = (V c main_v45 : S100000x16.Idx → Elt Ideal .f32) z := by
  obtain ⟨e0, e1, -, -, -, -⟩ := blockIndex_facts t
  unfold iblk2
  rw [View.read_apply]
  show V c main_v45 _ = V c main_v45 _
  congr 1
  funext a
  apply Fin.ext
  match a with
  | ⟨0, _⟩ => show win2_0.index t (0 : Fin 2) * 20000 + 1 * (y 0).val = (z 0).val; rw [e0, h0]; omega
  | ⟨1, _⟩ => show win2_0.index t (1 : Fin 2) * 16 + 1 * (y 1).val = (z 1).val; rw [e1, h1]; omega

/-- The weight block at every point is the weight matrix. -/
theorem weightBlock_apply (c : Dev nD) (t : Fin cfg2.N) (y : S16x40.Idx) :
    (iblk2 V c 1 t : Vec Ideal S16x40 .f32) y = (V c main_arg4 : S16x40.Idx → Elt Ideal .f32) y := by
  obtain ⟨-, -, e2, e3, -, -⟩ := blockIndex_facts t
  unfold iblk2
  rw [View.read_apply]
  show V c main_arg4 _ = V c main_arg4 _
  congr 1
  funext a
  apply Fin.ext
  match a with
  | ⟨0, _⟩ => show win2_1.index t (0 : Fin 2) * 16 + 1 * (y 0).val = (y 0).val; rw [e2]; omega
  | ⟨1, _⟩ => show win2_1.index t (1 : Fin 2) * 40 + 1 * (y 1).val = (y 1).val; rw [e3]; omega

/-- What point t writes back is block t of the projection of the arrays the region finds. -/
theorem flushed_eq (c : Dev nD) (t : Fin cfg2.N) :
    (dat2 (F := Ideal) V c).flushed 2 t = ((cfg2.win 2).blk t).view.read (Elt Ideal) (Cert.GcnSpec.project2 (F := Ideal) (V c main_v45) (V c main_arg4)) := by
  show (cfg2.win 2).cut (grid2.coords t) ((dat2 V c).after 2 t) = _
  rw [after2_2]
  unfold out2_2
  rw [View.canon_unit_zero zeroOffsets]
  simp only [View.ld_unit_zero (S := S20000x16) zeroOffsets, View.ld_unit_zero (S := S16x40) zeroOffsets]
  obtain ⟨-, -, -, -, e4, e5⟩ := blockIndex_facts t
  funext j
  rw [View.read_apply]
  refine blockProduct_eq_project2 _ _ _ _ t.val j _ ?_ ?_ (fun y z h0 h1 => featureBlock_apply V c t y z h0 h1) (fun y => weightBlock_apply V c t y)
  · show win2_2.index t (0 : Fin 2) * 20000 + 1 * (j 0).val = _; rw [e4]; omega
  · show win2_2.index t (1 : Fin 2) * 40 + 1 * (j 1).val = _; rw [e5]; omega

/-- A node-class pair is in point t's block iff its node is among the block's twenty thousand rows. -/
theorem mem_outBlock (t : Fin cfg2.N) (i : S100000x40.Idx) :
    i ∈ ((cfg2.win 2).blk t).view.set ↔ ∀ a : Fin 2, win2_2.index t a * S20000x40.size a ≤ (i a).val ∧ (i a).val < win2_2.index t a * S20000x40.size a + S20000x40.size a := by
  show i ∈ ((View.whole main_v46).slice (win2_2.rect t)).set ↔ _
  rw [View.set_slice_whole, Rect.mem_set_unit]
  exact Iff.rfl

/-- Node r is written back by point r / 20000. -/
theorem outBlocks_cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 5 := N_2
  have ht : (i 0).val / 20000 < grid2.N := by rw [hN]; omega
  obtain ⟨-, -, -, -, e4, e5⟩ := blockIndex_facts ⟨(i 0).val / 20000, ht⟩
  refine ⟨⟨(i 0).val / 20000, ht⟩, flush2_2 _, ?_⟩
  rw [mem_outBlock]
  intro a
  match a with
  | ⟨0, _⟩ =>
    show win2_2.index ⟨(i 0).val / 20000, ht⟩ (0 : Fin 2) * 20000 ≤ (i 0).val ∧ (i 0).val < win2_2.index ⟨(i 0).val / 20000, ht⟩ (0 : Fin 2) * 20000 + 20000
    rw [e4]; show (i 0).val / 20000 * 20000 ≤ (i 0).val ∧ (i 0).val < (i 0).val / 20000 * 20000 + 20000; omega
  | ⟨1, _⟩ =>
    show win2_2.index ⟨(i 0).val / 20000, ht⟩ (1 : Fin 2) * 40 ≤ (i 1).val ∧ (i 1).val < win2_2.index ⟨(i 0).val / 20000, ht⟩ (1 : Fin 2) * 40 + 40
    rw [e5]; omega

theorem final (c : Dev nD) :
    (dat2 (F := Ideal) V c).arrAt 2 cfg2.N = Cert.GcnSpec.project2 (F := Ideal) (V c main_v45) (V c main_arg4) :=
  (dat2 (F := Ideal) V c).arrAt_eq_of_cover 2 _ (fun t _ => flushed_eq V c t) outBlocks_cover

end Cert.KernelIdeal.Region2

end
-- ==== Proof.Region3.lean ====
import proofs.«141785_j24498493456719_1_alg».proof.Proof.Gen.KernelIdeal.Frame
import proofs.«141785_j24498493456719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- One row's log-softmax: the row shifted by its maximum, minus the logarithm of the sum of the shifted row's exponentials. -/
def rowLogSoftmax (z : Fin 40 → EReal) (q : Fin 40) : EReal :=
  (z q - Finset.univ.fold max (Ideal.ofBits .f32 0xFF800000#32) z)
    - Ideal.log (∑ k : Fin 40, Ideal.exp (z k - Finset.univ.fold max (Ideal.ofBits .f32 0xFF800000#32) z))

section Layout
variable {α : Type}

/-- A column `[a, 1]` broadcast to `[a, b]` reads, at `(p, c)`, the column at row `p`. -/
theorem broadcastTo_a1_ab_apply {a b : ℕ} (X : (⟨2, ![a, 1]⟩ : Shape).Idx → α) (h : (⟨2, ![a, 1]⟩ : Shape).Broadcasts ⟨2, ![a, b]⟩)
    (p : Fin a) (c : Fin b) : broadcastTo ⟨2, ![a, b]⟩ X h (ix2 p c) = X (ix2 p (0 : Fin 1)) := by
  refine broadcastTo_apply X h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-- The inserted index of a row reduction of a 20000 × 40 block is (row, column). -/
theorem lift_row (h : S20000x40.Reduces [1] S20000) (p : Fin 20000) (k : Fin 40) : h.lift (ix1 p) k = ix2 p k := by
  funext c; apply Fin.ext
  match c with
  | ⟨0, _⟩ => rfl
  | ⟨1, _⟩ => rfl

theorem rowMax_apply (Z : FVec Ideal S20000x40 .f32) (h : S20000x40.Reduces [1] S20000) (hφ : FKind.Formats .f32)
    (hacc : (0xFF800000#32 : BitVec 32) = 0xFF800000#32) (p : Fin 20000) :
    multiReduction .maximumf [1] S20000 Z 0xFF800000#32 h hφ hacc (ix1 p)
      = Finset.univ.fold max (Ideal.ofBits .f32 0xFF800000#32) (fun k : Fin 40 => Z (ix2 p k)) := by
  refine (Ideal.multiReduction_maximumf_single Z _ h hφ hacc (ix1 p)).trans ?_
  show Finset.univ.fold max (Ideal.ofBits .f32 0xFF800000#32) (fun k : Fin 40 => Z (h.lift (ix1 p) k)) = _
  simp only [lift_row]

theorem rowSum_apply (E : FVec Ideal S20000x40 .f32) (h : S20000x40.Reduces [1] S20000) (hφ : FKind.Formats .f32)
    (hacc : (0x00000000#32 : BitVec 32) = 0x00000000#32) (p : Fin 20000) :
    multiReduction .add [1] S20000 E 0x00000000#32 h hφ hacc (ix1 p) = ∑ k : Fin 40, E (ix2 p k) := by
  refine (Ideal.multiReduction_add_single E _ h hφ hacc (ix1 p)).trans ?_
  show ∑ k : Fin 40, E (h.lift (ix1 p) k) = _
  simp only [lift_row]

theorem payload_apply (v0 : Vec Ideal S20000x40 .f32) (v2 : Vec Ideal S1x40 .f32) (p : Fin 20000) (q : Fin 40) :
    k3_pay1 (F := Ideal) v0 v2 (ix2 p q) = rowLogSoftmax (fun k => v0 (ix2 p k) + v2 (ix2 0 k)) q := by
  have hmx := rowMax_apply (addf v0 (broadcastTo S20000x40 v2 broadcasts_S1x40_S20000x40)) reduces_S20000x40_S20000 (.inl rfl) rfl p
  unfold k3_pay1
  simp only [shapeCast_self]
  simp only [subf_apply, broadcastTo_a1_ab_apply, log_apply, shapeCast_a_a1_apply]
  rw [rowSum_apply]
  simp only [exp_apply, subf_apply, broadcastTo_a1_ab_apply, shapeCast_a_a1_apply, hmx, addf_apply, broadcastTo_1b_ab_apply]
  rfl

section HostLayout
variable {α : Type}

/-- A column `[a, 1]` broadcast along both axes to `[a, b]` reads, at `(p, c)`, the column at row `p`. -/
theorem broadcastInDim_a1_ab_apply {a b : ℕ} (X : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h X (ix2 p c) = X (ix2 p (0 : Fin 1)) := by
  refine broadcastInDim_apply _ h X (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` broadcast along both axes to `[a, b]` reads, at `(p, c)`, the row at column `c`. -/
theorem broadcastInDim_1b_ab_apply {a b : ℕ} (X : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h X (ix2 p c) = X (ix2 (0 : Fin 1) c) := by
  refine broadcastInDim_apply _ h X (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` broadcast to a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

end HostLayout

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- The inserted index of a row reduction of the 100000 × 40 array is (row, column). -/
theorem lift_row_array (h : S100000x40.Reduces [1] S100000) (i : Fin 100000) (k : Fin 40) : h.lift (ix1 i) k = ix2 i k := by
  funext c; apply Fin.ext
  match c with
  | ⟨0, _⟩ => rfl
  | ⟨1, _⟩ => rfl

theorem hostRowMax_apply (z : FVec Ideal S100000x40 .f32) (init : S_.Idx → Ideal .f32) (h' : S100000x40.ReducesTo [1] S100000)
    (hu : 0 < S_.numel) (i : Fin 100000) :
    Host.reduce FloatOps.maximumf z init h' hu (ix1 i)
      = Finset.univ.fold max (init (Shape.Idx.first hu)) (fun k : Fin 40 => z (ix2 i k)) := by
  have h : S100000x40.Reduces [1] S100000 := by decide
  refine (Host.reduce_eq_fold_single FloatOps.maximumf z init h' h hu (ix1 i)).trans ?_
  show Finset.univ.fold max (init (Shape.Idx.first hu)) (fun k : Fin 40 => z (h.lift (ix1 i) k)) = _
  simp only [lift_row_array]

theorem hostRowSum_apply (E : FVec Ideal S100000x40 .f32) (init : S_.Idx → Ideal .f32) (h' : S100000x40.ReducesTo [1] S100000)
    (hu : 0 < S_.numel) (i : Fin 100000) :
    Host.reduceAdd E init h' hu (ix1 i) = init (Shape.Idx.first hu) + ∑ k : Fin 40, E (ix2 i k) := by
  have h : S100000x40.Reduces [1] S100000 := by decide
  refine (Ideal.hostReduceAdd_single h' h E (init (Shape.Idx.first hu)) (ix1 i)).trans ?_
  show init (Shape.Idx.first hu) + ∑ k : Fin 40, E (h.lift (ix1 i) k) = _
  simp only [lift_row_array]

/-- The bias added, read at (row, column). -/
theorem addBias40_apply (a : Cert.GcnSpec.T Ideal S100000x40 .f32) (brow : Cert.GcnSpec.T Ideal S1x40 .f32) (i : Fin 100000) (k : Fin 40) :
    Cert.GcnSpec.addBias40 (F := Ideal) a brow (ix2 i k) = a (ix2 i k) + brow (ix2 0 k) := by
  unfold Cert.GcnSpec.addBias40
  rw [addf_apply, broadcastInDim_1b_ab_apply]

/-- Folding the maximum from a start value never goes below the start value. -/
theorem max_fold_max_self (b : EReal) (f : Fin 40 → EReal) :
    max b (Finset.univ.fold max b f) = Finset.univ.fold max b f :=
  max_eq_right ((Finset.le_fold_max _).2 (Or.inl le_rfl))

/-- A row shifted by its maximum, read at (row, column). -/
theorem shiftByRowMax_apply (z : Cert.GcnSpec.T Ideal S100000x40 .f32) (i : Fin 100000) (k : Fin 40) :
    Cert.GcnSpec.shiftByRowMax (F := Ideal) z (ix2 i k)
      = z (ix2 i k) - Finset.univ.fold max (Ideal.ofBits .f32 0xFF800000#32) (fun k' : Fin 40 => z (ix2 i k')) := by
  unfold Cert.GcnSpec.shiftByRowMax
  rw [subf_apply, broadcastInDim_a1_ab_apply, broadcastInDim_a_a1_apply, maximumf_apply, hostRowMax_apply]
  show z (ix2 i k) - max (Ideal.ofBits .f32 0xFF800000#32) (Finset.univ.fold max (Ideal.ofBits .f32 0xFF800000#32) (fun k' : Fin 40 => z (ix2 i k'))) = _
  rw [max_fold_max_self]

/-- A row minus the logarithm of the sum of its exponentials, read at (row, column). -/
theorem subLogSumExp_apply (s : Cert.GcnSpec.T Ideal S100000x40 .f32) (i : Fin 100000) (q : Fin 40) :
    Cert.GcnSpec.subLogSumExp (F := Ideal) s (ix2 i q)
      = s (ix2 i q) - Ideal.log (∑ k : Fin 40, Ideal.exp (s (ix2 i k))) := by
  unfold Cert.GcnSpec.subLogSumExp
  rw [subf_apply, broadcastInDim_a1_ab_apply, hostLog_apply, broadcastInDim_a_a1_apply, hostRowSum_apply]
  show s (ix2 i q) - Ideal.log (Ideal.ofBits .f32 0x00000000#32 + ∑ k : Fin 40, Ideal.exp (s (ix2 i k))) = _
  rw [Ideal.ofBits_zero_f32, zero_add]

theorem spec_apply (a : Cert.GcnSpec.T Ideal S100000x40 .f32) (brow : Cert.GcnSpec.T Ideal S1x40 .f32) (i : Fin 100000) (q : Fin 40) :
    Cert.GcnSpec.biasLogSoftmax (F := Ideal) a brow (ix2 i q) = rowLogSoftmax (fun k => a (ix2 i k) + brow (ix2 0 k)) q := by
  unfold Cert.GcnSpec.biasLogSoftmax
  rw [subLogSumExp_apply]
  simp only [shiftByRowMax_apply, addBias40_apply]
  rfl

/-- A block row and the array row it is cut from give the same row of the result. -/
theorem block_eq (a : Cert.GcnSpec.T Ideal S100000x40 .f32) (brow : Cert.GcnSpec.T Ideal S1x40 .f32)
    (x0 : Vec Ideal S20000x40 .f32) (x1 : Vec Ideal S1x40 .f32) (p : Fin 20000) (q : Fin 40) (r : Fin 100000)
    (h0 : ∀ k : Fin 40, x0 (ix2 p k) = a (ix2 r k)) (h1 : ∀ k : Fin 40, x1 (ix2 0 k) = brow (ix2 0 k)) :
    k3_pay1 (F := Ideal) x0 x1 (ix2 p q) = Cert.GcnSpec.biasLogSoftmax (F := Ideal) a brow (ix2 r q) := by
  rw [payload_apply, spec_apply]
  simp only [h0, h1]

theorem zero_offsets : (![0, 0] : Fin 2 → Nat) = fun _ => 0 := funext fun a => by fin_cases a <;> rfl

/-- The index maps over the grid: point `t` reads and writes row block `t`, the bias row is block 0. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is rows 20000·t … of the bias-and-log-softmax of the two arrays the region reads. -/
theorem flushed_eq (c : Dev nD) (t : Fin cfg3.N) :
    (dat3 (F := Ideal) V c).flushed 2 t
      = ((cfg3.win 2).blk t).view.read (Elt Ideal) (Cert.GcnSpec.biasLogSoftmax (F := Ideal) (V c main_v59) (V c main_v60)) := by
  show (cfg3.win 2).cut (grid3.coords t) ((dat3 V c).after 2 t) = _
  rw [after3_2]
  unfold out3_2
  rw [View.canon_unit_zero zero_offsets]
  simp only [View.ld_unit_zero (S := S20000x40) zero_offsets, View.ld_unit_zero (S := S1x40) zero_offsets]
  obtain ⟨e0, e1, e2, e3, e4, e5⟩ := block_indices t
  have hN : cfg3.N = 5 := N_3
  have ht : t.val < 5 := hN ▸ t.isLt
  funext j
  obtain ⟨p, q, rfl⟩ : ∃ (p : Fin 20000) (q : Fin 40), j = ix2 p q := ⟨j 0, j 1, eq_ix2 j⟩
  have hp : p.val < 20000 := p.isLt
  have hi : ((cfg3.win 2).blk t).view.emb (ix2 p q) = ix2 (⟨20000 * t.val + p.val, by omega⟩ : Fin 100000) q := by
    funext a; apply Fin.ext
    match a with
    | ⟨0, _⟩ => show win3_2.index t (0 : Fin 2) * 20000 + 1 * p.val = 20000 * t.val + p.val; omega
    | ⟨1, _⟩ => show win3_2.index t (1 : Fin 2) * 40 + 1 * q.val = q.val; omega
  show k3_pay1 (F := Ideal) (iblk3 V c 0 t) (iblk3 V c 1 t) (ix2 p q)
    = Cert.GcnSpec.biasLogSoftmax (F := Ideal) (V c main_v59) (V c main_v60) (((cfg3.win 2).blk t).view.emb (ix2 p q))
  rw [hi]
  refine block_eq _ _ _ _ p q _ (fun k => ?_) (fun k => ?_)
  · show V c main_v59 (((cfg3.win 0).blk t).view.emb (ix2 p k)) = V c main_v59 (ix2 _ k)
    congr 1
    funext a; apply Fin.ext
    match a with
    | ⟨0, _⟩ => show win3_0.index t (0 : Fin 2) * 20000 + 1 * p.val = 20000 * t.val + p.val; omega
    | ⟨1, _⟩ => show win3_0.index t (1 : Fin 2) * 40 + 1 * k.val = k.val; omega
  · show V c main_v60 (((cfg3.win 1).blk t).view.emb (ix2 0 k)) = V c main_v60 (ix2 0 k)
    congr 1
    funext a; apply Fin.ext
    match a with
    | ⟨0, _⟩ => show win3_1.index t (0 : Fin 2) * 1 + 1 * 0 = 0; omega
    | ⟨1, _⟩ => show win3_1.index t (1 : Fin 2) * 40 + 1 * k.val = k.val; omega

/-- An index of the array is in point `t`'s block iff each coordinate is in the block's range on its axis. -/
theorem mem_blk (t : Fin cfg3.N) (i : S100000x40.Idx) :
    i ∈ ((cfg3.win 2).blk t).view.set ↔ ∀ a : Fin 2, win3_2.index t a * S20000x40.size a ≤ (i a).val ∧ (i a).val < win3_2.index t a * S20000x40.size a + S20000x40.size a := by
  show i ∈ ((View.whole main_v61).slice (win3_2.rect t)).set ↔ _
  rw [View.set_slice_whole, Rect.mem_set_unit]
  exact Iff.rfl

/-- Row `r` of the array is in the block of point `r / 20000`. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 5 := N_3
  obtain ⟨t, ht⟩ : ∃ t : Fin cfg3.N, t.val = (i 0).val / 20000 := ⟨⟨(i 0).val / 20000, by rw [hN]; omega⟩, rfl⟩
  obtain ⟨e0, e1, e2, e3, e4, e5⟩ := block_indices t
  refine ⟨t, flush3_2 t, ?_⟩
  rw [mem_blk]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 40 ≤ (i 1).val ∧ (i 1).val < win3_2.index t (1 : Fin 2) * 40 + 40; omega

theorem final (c : Dev nD) :
    (dat3 (F := Ideal) V c).arrAt 2 cfg3.N = Cert.GcnSpec.biasLogSoftmax (F := Ideal) (V c main_v59) (V c main_v60) :=
  (dat3 (F := Ideal) V c).arrAt_eq_of_cover 2 _ (fun t _ => flushed_eq V c t) cover

end Cert.KernelIdeal.Region3

end
-- ==== Proof.KernelValue.lean ====
/-
  The kernel program's result, followed back through its four regions and the host operations between them:
  the last region leaves the log-softmax of the second aggregation plus bias, the third region the second
  projection of what the second region left, the second region the rectified first aggregation plus bias,
  and the first region the first projection of the node features — the network function of the six
  argument arrays.
-/
import proofs.«141785_j24498493456719_1_alg».proof.Proof.HostStages
import proofs.«141785_j24498493456719_1_alg».proof.Proof.BiasRow
import proofs.«141785_j24498493456719_1_alg».proof.Proof.Region0
import proofs.«141785_j24498493456719_1_alg».proof.Proof.Region1
import proofs.«141785_j24498493456719_1_alg».proof.Proof.Region2
import proofs.«141785_j24498493456719_1_alg».proof.Proof.Region3
import proofs.«141785_j24498493456719_1_alg».proof.Proof.KernelRun

set_option maxRecDepth 16384

noncomputable section

namespace Cert.KernelIdeal.Net

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array after the last region is the network of the launch contents of the six arguments. -/
theorem result_eq (c : Dev nD) :
    W9 m ρ c (Proc.devRef .tc main_v61)
      = Cert.GcnSpec.gcn (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [Host.W9_out, Region3.final (V8 m ρ) c]
  dsimp only [V8]
  rw [Host.W8_aggregate, Host.W8_bias, Host.W7_out, Region2.final (V6 m ρ) c]
  dsimp only [V6]
  rw [Host.W6_out, Host.W6_arg4, Region1.final (V5 m ρ) c]
  dsimp only [V5]
  rw [Host.W5_aggregate, Host.W5_bias, Host.W4_out, Region0.final (V3 m ρ) c]
  dsimp only [V3]
  rw [Host.W3_arg m ρ c main_arg0 (by simp), Host.W3_arg m ρ c main_arg2 (by simp),
    Cert.GcnSpec.reshape_eq_biasRow16, Cert.GcnSpec.reshape_eq_biasRow40]
  rfl

/-- Every weakly fair execution of the kernel program terminates with the result at the network function of
    the arguments' launch contents, the arguments unchanged. -/
theorem run : θ_run defs (onTc (τ := τ) (main (F := Ideal))) ⟨m, fun _ => 0, ρ⟩ (fun r => ∀ c : Dev nD,
      r.2.mem ((c.tc : Thread nD τ).loc main_v61)
        = Cert.GcnSpec.gcn (F := Ideal) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_main m ρ)

end Cert.KernelIdeal.Net

end
-- ==== Proof.RefValue.lean ====
/-
  The reference's run, read back in five stretches: the message indices and weights with the first
  projection; the first aggregation, bias, rectifier and second projection; the indices and weights once
  more (the reference computes them per layer); the second aggregation and bias; the log-softmax. Each stretch's
  results are the network's whole-array functions of what the stretch found, so the whole run ends with the
  result at the network function of the six argument arrays.
-/
import proofs.«141785_j24498493456719_1_alg».proof.Proof.RefRun
import proofs.«141785_j24498493456719_1_alg».proof.Proof.Spec
import Idealize.ShloMosaic.Lib.Pipeline.Frame

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.SL.Sem Idealize.ShloMosaic.StableHlo
open Cert.GcnSpec

variable {F : FTy → Type} [FloatOps F]

/-! ## An aggregation over given indices and weights -/

/-- Gather 16-wide features at the sources `row`, scale by the weights `norm`, add up at the targets `col`. -/
def aggregateWith16 (row col : T F S3300000 .i32) (norm : T F S3300000 .f32) (h : T F S100000x16 .f32) : T F S100000x16 .f32 :=
  Host.scatterAdd scatter_S100000x16_S3300000x1_S3300000x16_1_0_0_1 (broadcastInDim S100000x16 ![] bcast_S_S100000x16 (constant S_ .f32 0x00000000#32)) (asColumn col) (mulf (Host.gather gather_S100000x16_S3300000x1_S3300000x16_1_0_n_n_0_1_116 h (asColumn (wrapIdx row))) (broadcastInDim S3300000x16 ![0, 1] bcast_S3300000x1_S3300000x16_0_1 (broadcastInDim S3300000x1 ![0] bcast_S3300000_S3300000x1_0 norm)))

/-- The same for 40-wide features. -/
def aggregateWith40 (row col : T F S3300000 .i32) (norm : T F S3300000 .f32) (h : T F S100000x40 .f32) : T F S100000x40 .f32 :=
  Host.scatterAdd scatter_S100000x40_S3300000x1_S3300000x40_1_0_0_1 (broadcastInDim S100000x40 ![] bcast_S_S100000x40 (constant S_ .f32 0x00000000#32)) (asColumn col) (mulf (Host.gather gather_S100000x40_S3300000x1_S3300000x40_1_0_n_n_0_1_140 h (asColumn (wrapIdx row))) (broadcastInDim S3300000x40 ![0, 1] bcast_S3300000x1_S3300000x40_0_1 (broadcastInDim S3300000x1 ![0] bcast_S3300000_S3300000x1_0 norm)))

theorem aggregate16_eq (e : T F S2x3200000 .i32) (h : T F S100000x16 .f32) :
    aggregateWith16 (rowIdx e) (colIdx e) (edgeNorm e) h = aggregate16 e h := rfl
theorem aggregate40_eq (e : T F S2x3200000 .i32) (h : T F S100000x40 .f32) :
    aggregateWith40 (rowIdx e) (colIdx e) (edgeNorm e) h = aggregate40 e h := rfl

/-! ## The five stretches of the operation list -/

abbrev opsA : List (HloOp τ sig (Elt F)) := (ops (F := F)).take 41
abbrev opsB : List (HloOp τ sig (Elt F)) := ((ops (F := F)).drop 41).take 23
abbrev opsC : List (HloOp τ sig (Elt F)) := ((ops (F := F)).drop 64).take 40
abbrev opsD : List (HloOp τ sig (Elt F)) := ((ops (F := F)).drop 104).take 19
abbrev opsE : List (HloOp τ sig (Elt F)) := (ops (F := F)).drop 123

theorem after_ops (V : Valuation τ sig (Elt F)) :
    after ops V = after opsE (after opsD (after opsC (after opsB (after opsA V)))) := by
  rw [← StableHlo.after_append, ← StableHlo.after_append, ← StableHlo.after_append, ← StableHlo.after_append]
  rfl

/-- Unfolds a stretch to its literal operations, then reads each result off the fold. -/
macro "stretch_results" : tactic =>
  `(tactic| (simp only [opsA, opsB, opsC, opsD, opsE, ops, List.take_succ_cons, List.take_zero, List.drop_succ_cons, List.drop_zero]
             after_results_simp))

variable (U : Valuation τ sig (Elt F))

/-- Contents carried to a typed reference's buffer and back are unchanged. -/
theorem ofBuf_toBuf {T : BufTy} (x : TRef sig T) (v : T.Contents (Elt F)) : x.ofBuf (x.toBuf v) = v := by
  unfold TRef.ofBuf TRef.toBuf
  rw [cast_cast, cast_eq]

/-! ## First stretch: from the arguments -/

theorem A_row : after opsA U (Proc.devRef .tc main_v4) = rowIdx (U (Proc.devRef .tc main_arg1)) := by
  stretch_results <;> rfl
theorem A_col : after opsA U (Proc.devRef .tc main_v7) = colIdx (U (Proc.devRef .tc main_arg1)) := by
  stretch_results <;> rfl
theorem A_norm : after opsA U (Proc.devRef .tc main_v30) = edgeNorm (U (Proc.devRef .tc main_arg1)) := by
  stretch_results <;> rfl
theorem A_project : after opsA U (Proc.devRef .tc main_v0) = project1 (U (Proc.devRef .tc main_arg0)) (U (Proc.devRef .tc main_arg2)) := by
  stretch_results <;> rfl
theorem A_arg (b : Ref sig .tc) (hb : b = main_arg1 ∨ b = main_arg3 ∨ b = main_arg4 ∨ b = main_arg5) :
    after opsA U (Proc.devRef .tc b) = U (Proc.devRef .tc b) := by
  rcases hb with rfl | rfl | rfl | rfl <;> (stretch_results <;> rfl)

/-! ## Second stretch: from the indices, the weights and the first projection -/

theorem B_hidden :
    after opsB U (Proc.devRef .tc main_v48)
      = project2 (biasRelu (aggregateWith16 (U (Proc.devRef .tc main_v4)) (U (Proc.devRef .tc main_v7)) (U (Proc.devRef .tc main_v30)) (U (Proc.devRef .tc main_v0))) (biasRow16 (U (Proc.devRef .tc main_arg3)))) (U (Proc.devRef .tc main_arg4)) := by
  stretch_results
  simp only [ofBuf_toBuf]
  rfl
theorem B_arg (b : Ref sig .tc) (hb : b = main_arg1 ∨ b = main_arg5) :
    after opsB U (Proc.devRef .tc b) = U (Proc.devRef .tc b) := by
  rcases hb with rfl | rfl <;> (stretch_results <;> rfl)

/-! ## Third stretch: the indices and weights again -/

theorem C_row : after opsC U (Proc.devRef .tc main_v52) = rowIdx (U (Proc.devRef .tc main_arg1)) := by
  stretch_results <;> rfl
theorem C_col : after opsC U (Proc.devRef .tc main_v55) = colIdx (U (Proc.devRef .tc main_arg1)) := by
  stretch_results <;> rfl
theorem C_norm : after opsC U (Proc.devRef .tc main_v78) = edgeNorm (U (Proc.devRef .tc main_arg1)) := by
  stretch_results <;> rfl
theorem C_keep (b : Ref sig .tc) (hb : b = main_v48 ∨ b = main_arg5) :
    after opsC U (Proc.devRef .tc b) = U (Proc.devRef .tc b) := by
  rcases hb with rfl | rfl <;> (stretch_results <;> rfl)

/-! ## Fourth stretch: the second aggregation and its bias -/

theorem D_biased :
    after opsD U (Proc.devRef .tc main_v94)
      = addBias40 (aggregateWith40 (U (Proc.devRef .tc main_v52)) (U (Proc.devRef .tc main_v55)) (U (Proc.devRef .tc main_v78)) (U (Proc.devRef .tc main_v48))) (biasRow40 (U (Proc.devRef .tc main_arg5))) := by
  stretch_results <;> rfl

/-! ## Fifth stretch: the row-wise log-softmax -/

theorem E_out : after opsE U (Proc.devRef .tc main_v95) = subLogSumExp (shiftByRowMax (U (Proc.devRef .tc main_v94))) := by
  stretch_results
  simp only [ofBuf_toBuf]
  rfl

/-! ## The whole list -/

theorem result_eq (V : Valuation τ sig (Elt F)) :
    after ops V (Proc.devRef .tc main_v95)
      = gcn (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, E_out, D_biased, C_row, C_col, C_norm, C_keep _ main_v48 (by simp), C_keep _ main_arg5 (by simp),
    B_arg _ main_arg1 (by simp), B_arg _ main_arg5 (by simp), B_hidden, A_row, A_col, A_norm, A_project,
    A_arg _ main_arg1 (by simp), A_arg _ main_arg3 (by simp), A_arg _ main_arg4 (by simp), A_arg _ main_arg5 (by simp),
    aggregate16_eq, aggregate40_eq]
  rfl

/-! ## The arguments are never written -/

theorem keep_arg (V : Valuation τ sig (Elt F)) (b : Ref sig .tc)
    (hb : b = main_arg0 ∨ b = main_arg1 ∨ b = main_arg2 ∨ b = main_arg3 ∨ b = main_arg4 ∨ b = main_arg5) :
    after ops V (Proc.devRef .tc b) = V (Proc.devRef .tc b) := by
  rcases hb with rfl | rfl | rfl | rfl | rfl | rfl <;>
  · refine StableHlo.after_of_forall_not_mem _ _ (List.forall_iff_forall_mem.mp ?_)
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

/-! ## The run -/

/-- Every weakly fair execution of the reference terminates with the result at the network function of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = gcn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans ((result_eq _).trans rfl),
      (h c main_arg0).trans ((keep_arg _ _ (by simp)).trans rfl),
      (h c main_arg1).trans ((keep_arg _ _ (by simp)).trans rfl),
      (h c main_arg2).trans ((keep_arg _ _ (by simp)).trans rfl),
      (h c main_arg3).trans ((keep_arg _ _ (by simp)).trans rfl),
      (h c main_arg4).trans ((keep_arg _ _ (by simp)).trans rfl),
      (h c main_arg5).trans ((keep_arg _ _ (by simp)).trans rfl)⟩)
    (run_seq scopedRefs_eq scopedSems_eq defs main (fun _ => ops) main_eq (fun _ => ops_sub) m ρ)

end Cert.ReferenceIdeal.RefValue

end
-- ==== Proof.lean ====
/-
  The certificate of a two-layer graph convolution network: a Pallas TPU program of four kernel regions
  (two tiled projections on the matrix unit, the bias-and-rectifier epilogue of the first layer, the
  bias-and-log-softmax epilogue of the second) with the edge gather and scatter-add done by host operations
  between them, against a jnp reference that computes every step on the host.

  Over the extended reals both programs compute ONE function of the six argument arrays (the network of
  Proof/Spec.lean): the messages' source and target indices are the edge list with a self loop per node; a
  message's weight is the product of the inverse square roots of its end nodes' degrees; a layer projects the
  node features, gathers them at the sources, scales them by the weights, adds them up at the targets and adds
  the bias; the rectifier sits between the layers and a row-wise log-softmax at the end. The kernel's
  projections narrow their operands before the matrix unit, which is the identity over the reals, and a tile's
  product is the tile's rows of the whole product; its epilogues act row by row, so a tile's result is the
  tile's rows of the whole-array epilogue; the reference's second computation of the indices and weights
  gives the first one's values. No algebraic law beyond reading both sides as the same composition is needed,
  so the finiteness of the inputs is never used.

  The kernel program's run with its result named (Proof/KernelRun.lean) is followed back region by region
  (Proof/Region0 … Region3, Proof/HostStages.lean, Proof/KernelValue.lean); the reference's run is read in four
  stretches (Proof/RefValue.lean).
-/
import proofs.«141785_j24498493456719_1_alg».proof.Defs
import proofs.«141785_j24498493456719_1_alg».proof.Proof.Gen.Kernel
import proofs.«141785_j24498493456719_1_alg».proof.Proof.Gen.Kernel.Skeleton
import proofs.«141785_j24498493456719_1_alg».proof.Proof.Gen.Kernel.Launch
import proofs.«141785_j24498493456719_1_alg».proof.Proof.Gen.Kernel.Points
import proofs.«141785_j24498493456719_1_alg».proof.Proof.Gen.Kernel.Frame
import proofs.«141785_j24498493456719_1_alg».proof.Proof.Gen.KernelIdeal
import proofs.«141785_j24498493456719_1_alg».proof.Proof.Gen.KernelIdeal.Skeleton
import proofs.«141785_j24498493456719_1_alg».proof.Proof.Gen.KernelIdeal.Launch
import proofs.«141785_j24498493456719_1_alg».proof.Proof.Gen.KernelIdeal.Points
import proofs.«141785_j24498493456719_1_alg».proof.Proof.Gen.KernelIdeal.Frame
import proofs.«141785_j24498493456719_1_alg».proof.Proof.Gen.ReferenceIdeal
import proofs.«141785_j24498493456719_1_alg».proof.Proof.Gen.Pre_finite_inputs
import proofs.«141785_j24498493456719_1_alg».proof.Proof.KernelValue
import proofs.«141785_j24498493456719_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- From memories that agree on the six arguments both programs end with the network of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
